-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel

variable [Facts]

def fn {F : FTy → Type} [FloatOps F] (main_arg0 : FVec F S64x2048x512 .f32) (main_arg1 : IVec S64x2 32) (main_arg2 : IVec S64 32) (main_arg3 : IVec S64 32) (main_arg4 : IVec S64x2048 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  main_v3
-- ==== Kernel.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S2048 : Shape := ⟨1, ![2048]⟩
abbrev S1x2048 : Shape := ⟨2, ![1, 2048]⟩
abbrev S64x1 : Shape := ⟨2, ![64, 1]⟩
abbrev S_ : Shape := ⟨0, ![]⟩
abbrev S8x512x512 : Shape := ⟨3, ![8, 512, 512]⟩
abbrev S8x512 : Shape := ⟨2, ![8, 512]⟩
abbrev S8x512x1 : Shape := ⟨3, ![8, 512, 1]⟩

abbrev nBuf : Space → Nat
  | .hbm => 36
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S64x2, .i32⟩
  | .hbm, ⟨2, _⟩ => ⟨S64, .i32⟩
  | .hbm, ⟨3, _⟩ => ⟨S64, .i32⟩
  | .hbm, ⟨4, _⟩ => ⟨S64x2048, .i32⟩
  | .hbm, ⟨5, _⟩ => ⟨S2048, .i32⟩
  | .hbm, ⟨6, _⟩ => ⟨S1x2048, .i32⟩
  | .hbm, ⟨7, _⟩ => ⟨S64x1, .i32⟩
  | .hbm, ⟨8, _⟩ => ⟨S64x1, .i32⟩
  | .hbm, ⟨9, _⟩ => ⟨S64, .i32⟩
  | .hbm, ⟨10, _⟩ => ⟨S64, .f32⟩
  | .hbm, ⟨11, _⟩ => ⟨S64x1, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S64x2048, .f32⟩
  | .hbm, ⟨18, _⟩ => ⟨S64x2048, .i32⟩
  | .hbm, ⟨19, _⟩ => ⟨S64x2048, .i32⟩
  | .hbm, ⟨20, _⟩ => ⟨S64x2048, .i1⟩
  | .hbm, ⟨21, _⟩ => ⟨S64x2048, .i32⟩
  | .hbm, ⟨22, _⟩ => ⟨S64x2048, .i32⟩
  | .hbm, ⟨23, _⟩ => ⟨S64x2048, .i1⟩
  | .hbm, ⟨24, _⟩ => ⟨S64x2048, .i1⟩
  | .hbm, ⟨25, _⟩ => ⟨S64x1, .i32⟩
  | .hbm, ⟨26, _⟩ => ⟨S64x2048, .i32⟩
  | .hbm, ⟨27, _⟩ => ⟨S64x2048, .i32⟩
  | .hbm, ⟨28, _⟩ => ⟨S64x2048, .i1⟩
  | .hbm, ⟨29, _⟩ => ⟨S64x2048, .i1⟩
  | .hbm, ⟨30, _⟩ => ⟨S64x2048, .i1⟩
  | .hbm, ⟨31, _⟩ => ⟨S_, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048x512, .f32⟩
  | .local _ .vmem, ⟨0, _⟩ => ⟨S8x512x512, .f32⟩
  | .local _ .vmem, ⟨1, _⟩ => ⟨S8x512x512, .f32⟩
  | .local _ .vmem, ⟨2, _⟩ => ⟨S8x512, .f32⟩
  | .local _ .vmem, ⟨3, _⟩ => ⟨S8x512, .f32⟩
  | .local _ .vmem, ⟨4, _⟩ => ⟨S8x512x512, .f32⟩
  | .local _ .vmem, ⟨5, _⟩ => ⟨S8x512x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2048_S1x2048_1 : S2048.BroadcastsInDim S1x2048 (![1] : Fin 1 → Fin S1x2048.rank)
  slices_S64x2_S64x1_0_0 : S64x2.Slices ![0, 0] S64x1
  slices_S64x2_S64x1_0_1 : S64x2.Slices ![0, 1] S64x1
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S_S64x2048 : S_.BroadcastsInDim S64x2048 (![] : Fin 0 → Fin S64x2048.rank)
  bcast_S1x2048_S64x2048_0_1 : S1x2048.BroadcastsInDim S64x2048 (![0, 1] : Fin 2 → Fin S64x2048.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x512x1 : S8x512.ShapeCasts S8x512x1
  shapeCasts_S8x512x1_S8x512x1 : S8x512x1.ShapeCasts S8x512x1
  broadcasts_S8x512x1_S8x512x512 : S8x512x1.Broadcasts S8x512x512
  inb_S8x512x512_S8x512x512_0_0_0 : ∀ a, (![0, 0, 0] : Fin 3 → Nat) a + S8x512x512.size a ≤ S8x512x512.size a
  h_S8x512x512 : 0 < S8x512x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x2048x512.size a
  hwx0_0 : ∀ i : grid0.Coords, EltTy.bits .f32 = 32 ∨ (Rect.block (s := S64x2048x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S64x2048.size a
  hwx0_1 : ∀ i : grid0.Coords, EltTy.bits .f32 = 32 ∨ (Rect.block (s := S64x2048) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S64x2048x512.size a
  hwx0_2 : ∀ i : grid0.Coords, EltTy.bits .f32 = 32 ∨ (Rect.block (s := S64x2048x512) S8x512x512.size (cc0_transform_2 i) (hinb0_2 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S64x2 : Shape := ⟨2, ![64, 2]⟩
abbrev S64 : Shape := ⟨1, ![64]⟩
abbrev S64x2048 : Shape := ⟨2, ![64, 2048]⟩
abbrev S2048 : Shape := ⟨1, ![2048]⟩
abbrev S1x2048 : Shape := ⟨2, ![1, 2048]⟩
abbrev S64x1 : Shape := ⟨2, ![64, 1]⟩
abbrev S_ : Shape := ⟨0, ![]⟩
abbrev S64x2048x1 : Shape := ⟨3, ![64, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2, .i32⟩
  | .hbm, ⟨2, _⟩ => ⟨S64, .i32⟩
  | .hbm, ⟨3, _⟩ => ⟨S64, .i32⟩
  | .hbm, ⟨4, _⟩ => ⟨S64x2048, .i32⟩
  | .hbm, ⟨5, _⟩ => ⟨S2048, .i32⟩
  | .hbm, ⟨6, _⟩ => ⟨S1x2048, .i32⟩
  | .hbm, ⟨7, _⟩ => ⟨S64x1, .i32⟩
  | .hbm, ⟨8, _⟩ => ⟨S64x1, .i32⟩
  | .hbm, ⟨9, _⟩ => ⟨S64, .i32⟩
  | .hbm, ⟨10, _⟩ => ⟨S64, .f32⟩
  | .hbm, ⟨11, _⟩ => ⟨S64x1, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S_, .f32⟩
  | .hbm, ⟨16, _⟩ => ⟨S64x2048, .f32⟩
  | .hbm, ⟨17, _⟩ => ⟨S64x2048, .f32⟩
  | .hbm, ⟨18, _⟩ => ⟨S64x2048, .i32⟩
  | .hbm, ⟨19, _⟩ => ⟨S64x2048, .i32⟩
  | .hbm, ⟨20, _⟩ => ⟨S64x2048, .i1⟩
  | .hbm, ⟨21, _⟩ => ⟨S64x2048, .i32⟩
  | .hbm, ⟨22, _⟩ => ⟨S64x2048, .i32⟩
  | .hbm, ⟨23, _⟩ => ⟨S64x2048, .i1⟩
  | .hbm, ⟨24, _⟩ => ⟨S64x2048, .i1⟩
  | .hbm, ⟨25, _⟩ => ⟨S64x1, .i32⟩
  | .hbm, ⟨26, _⟩ => ⟨S64x2048, .i32⟩
  | .hbm, ⟨27, _⟩ => ⟨S64x2048, .i32⟩
  | .hbm, ⟨28, _⟩ => ⟨S64x2048, .i1⟩
  | .hbm, ⟨29, _⟩ => ⟨S64x2048, .i1⟩
  | .hbm, ⟨30, _⟩ => ⟨S64x2048, .i1⟩
  | .hbm, ⟨31, _⟩ => ⟨S_, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S64x2048x1, .f32⟩
  | .hbm, ⟨36, _⟩ => ⟨S64x2048x512, .f32⟩
  | .hbm, ⟨37, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  slices_S64x2_S64x1_0_0 : S64x2.Slices ![0, 0] S64x1
  slices_S64x2_S64x1_0_1 : S64x2.Slices ![0, 1] S64x1
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S_S64x2048 : S_.BroadcastsInDim S64x2048 (![] : Fin 0 → Fin S64x2048.rank)
  bcast_S1x2048_S64x2048_0_1 : S1x2048.BroadcastsInDim S64x2048 (![0, 1] : Fin 2 → Fin S64x2048.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)

variable [Facts₀]

class Facts : Prop extends Facts₀ where

variable [Facts]
-- ==== Proof.BlockProduct.lean ====
/-
  What the kernel leaves in its result array, at any instance of the floats.

  The grid has 8 x 4 points; point (bi, si) works on rows 8*bi .. 8*bi+7 of the batch axis and positions
  512*si .. 512*si+511 of the sequence axis, all 512 features. It multiplies every entry x[b, s, d] of its block of
  the input by the entry w[b, s] of its block of the weight table (the table's [8, 512] block is re-laid as
  [8, 512, 1] and repeated along the feature axis), and writes the [8, 512, 512] block of products back. The
  32 blocks tile the [64, 2048, 512] result, so the result array ends at
      out[b, s, d] = x[b, s, d] * w[b, s]
  for every index, with x and w the two arrays the region finds when it is entered.
-/
import proofs.«104873_j23905787970107_1_alg».proof.Proof.Gen.KernelIdeal.Value

set_option maxRecDepth 16384

noncomputable section

namespace Cert.KernelIdeal.RowScaled

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The (batch, position) pair of an index (batch, position, feature). -/
abbrev rowOf (i : S64x2048x512.Idx) : S64x2048.Idx := fun a => match a with
  | ⟨0, _⟩ => ⟨(i 0).val, (i 0).isLt⟩
  | ⟨1, _⟩ => ⟨(i 1).val, (i 1).isLt⟩

/-- Every entry of `x` times the weight of its (batch, position) pair. -/
abbrev scaled (x : S64x2048x512.Idx → Elt F .f32) (w : S64x2048.Idx → Elt F .f32) : S64x2048x512.Idx → Elt F .f32 :=
  fun i => FloatOps.mulf (x i) (w (rowOf i))

theorem zero3 : (![0, 0, 0] : Fin 3 → Nat) = fun _ => 0 := funext fun a => by fin_cases a <;> rfl
theorem zero2 : (![0, 0] : Fin 2 → Nat) = fun _ => 0 := funext fun a => by fin_cases a <;> rfl

/-- The block the body leaves, entry by entry: the input block's entry times the weight block's entry of the same
    (row, position), whatever the feature. -/
theorem block_eq (x0 : Vec F S8x512x512 .f32) (x1 : Vec F S8x512 .f32) (y : S8x512x512.Idx) :
    out0_2 x0 x1 y = FloatOps.mulf (x0 (ix2_0 y)) (x1 (ix2_1 y)) := by
  unfold out0_2
  rw [canon2_eq]
  simp only [View.ld_unit_zero (S := S8x512x512) zero3, View.ld_unit_zero (S := S8x512) zero2]

/-- The three index maps over the 32 grid points: the input's and the result's blocks move together, the weight
    table's block follows them on the first two axes, and the block indices stay below 8, below 4 and at 0. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (0 : Fin 3)
    ∧ win0_1.index t (1 : Fin 2) = win0_2.index t (1 : Fin 3)
    ∧ win0_2.index t (0 : Fin 3) ≤ 7 ∧ win0_2.index t (1 : Fin 3) ≤ 3 ∧ win0_2.index t (2 : Fin 3) = 0 :=
  (by decide +kernel : ∀ t : Fin grid0.N, _)

/-- Every (batch block, position block) pair is some grid point's. -/
theorem index_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What point `t` writes back is block `t` of the products of the two arrays the region finds. -/
theorem flushed_eq (c : Dev nD) (t : Fin cfg0.N) :
    (dats m 0 c).flushed 2 t
      = ((cfg0.win 2).blk t).view.read (Elt F) (scaled (V m c main_arg0) (V m c main_v25)) := by
  rw [flushed2]
  obtain ⟨e0, e1, e2, e3, e4, b0, b1, b2⟩ := index_facts t
  funext j
  have hj0 : (j 0).val < 8 := (j 0).isLt
  have hj1 : (j 1).val < 512 := (j 1).isLt
  have hj2 : (j 2).val < 512 := (j 2).isLt
  show out0_2 (iblk m c 0 t) (iblk m c 1 t) j = _
  rw [block_eq]
  show FloatOps.mulf (V m c main_arg0 (((cfg0.win 0).blk t).view.emb (ix2_0 j))) (V m c main_v25 (((cfg0.win 1).blk t).view.emb (ix2_1 j)))
    = FloatOps.mulf (V m c main_arg0 (((cfg0.win 2).blk t).view.emb j)) (V m c main_v25 (rowOf (((cfg0.win 2).blk t).view.emb j)))
  have h0 : ((cfg0.win 0).blk t).view.emb (ix2_0 j) = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 512 + 1 * (j 2).val = win0_2.index t (2 : Fin 3) * 512 + 1 * (j 2).val; omega
  have h1 : ((cfg0.win 1).blk t).view.emb (ix2_1 j) = rowOf (((cfg0.win 2).blk t).view.emb j) := by
    funext a; apply Fin.ext
    match a with
    | ⟨0, _⟩ => show win0_1.index t (0 : Fin 2) * 8 + 1 * (j 0).val = win0_2.index t (0 : Fin 3) * 8 + 1 * (j 0).val; omega
    | ⟨1, _⟩ => show win0_1.index t (1 : Fin 2) * 512 + 1 * (j 1).val = win0_2.index t (1 : Fin 3) * 512 + 1 * (j 1).val; omega
  rw [h0, h1]

/-- An index of the result is in point `t`'s block iff each coordinate is in the block's range on its axis. -/
theorem mem_block (t : Fin cfg0.N) (i : S64x2048x512.Idx) :
    i ∈ ((cfg0.win 2).blk t).view.set ↔ ∀ a : Fin 3, win0_2.index t a * S8x512x512.size a ≤ (i a).val ∧ (i a).val < win0_2.index t a * S8x512x512.size a + S8x512x512.size a := by
  show i ∈ ((View.whole main_v26).slice (win0_2.rect t)).set ↔ _
  rw [View.set_slice_whole, Rect.mem_set_unit]
  exact Iff.rfl

/-- The 32 blocks tile the result: index (b, s, d) lies in the block of the point with block indices (b / 8, s / 512). -/
theorem covered (i : S64x2048x512.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hi2 : (i 2).val < 512 := (i 2).isLt
  obtain ⟨t, ht⟩ := index_onto ⟨(i 0).val / 8, by omega⟩ ⟨(i 1).val / 512, by omega⟩
  have q0 : win0_2.index t (0 : Fin 3) = (i 0).val / 8 := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the run: every entry of the input the region finds times the weight of its row. -/
theorem final (c : Dev nD) :
    (dats m 0 c).arrAt 2 cfg0.N = scaled (V m c main_arg0) (V m c main_v25) :=
  (dats m 0 c).arrAt_eq_of_cover 2 (scaled (V m c main_arg0) (V m c main_v25)) (fun t _ => flushed_eq m c t) covered

end Cert.KernelIdeal.RowScaled

end
-- ==== Proof.WeightTable.lean ====
/-
  The weight table, and that the kernel's region finds it in its second operand.

  Before the region, @main computes from the four integer arguments a table w of shape [64, 2048]: with
  j the position 0 .. 2047, [start_b, end_b] the aspect span of batch row b (the two columns of the first
  integer argument), len_b the text length and alen_b the aspect length,
      w[b, j] = 1 - dist[b, j] / (len_b - alen_b)    if j < len_b and not (start_b <= j and j <= end_b),
      w[b, j] = 0                                     otherwise,
  the integers converted to floats before the division. The table is written here once, as the composition of the
  printed host operations, for any instance of the floats; nothing below ever opens it: the kernel and the
  reference compute it by the same operations, and the claim only needs that it is the same table on both sides.
-/
import proofs.«104873_j23905787970107_1_alg».proof.Proof.Gen.KernelIdeal.Frame
import Idealize.ShloMosaic.Lib.StableHlo.Run

noncomputable section

namespace Cert.KernelIdeal.RowScaled

open Cert.KernelIdeal Cert.KernelIdeal.Gen Idealize.ShloMosaic Idealize.ShloMosaic.TcCoe Idealize.SL.Sem Idealize.ShloMosaic.StableHlo

variable {F : FTy → Type} [FloatOps F]

/-- The position j, at every (b, j). -/
def positions : (⟨S64x2048, .i32⟩ : BufTy).Contents (Elt F) :=
  broadcastInDim S64x2048 ![0, 1] bcast_S1x2048_S64x2048_0_1 (broadcastInDim S1x2048 ![1] bcast_S2048_S1x2048_1 (iotaInDim S2048 32 0))

/-- Inside the aspect span: start_b <= j and j <= end_b. -/
def inAspect (span : (⟨S64x2, .i32⟩ : BufTy).Contents (Elt F)) : (⟨S64x2048, .i1⟩ : BufTy).Contents (Elt F) :=
  andi (cmpi .sge (positions (F := F)) (broadcastInDim S64x2048 ![0, 1] bcast_S64x1_S64x2048_0_1 (extractStridedSlice S64x1 ![0, 0] span slices_S64x2_S64x1_0_0)))
    (cmpi .sle (positions (F := F)) (broadcastInDim S64x2048 ![0, 1] bcast_S64x1_S64x2048_0_1 (extractStridedSlice S64x1 ![0, 1] span slices_S64x2_S64x1_0_1)))

/-- Inside the text: j < len_b. -/
def inText (len : (⟨S64, .i32⟩ : BufTy).Contents (Elt F)) : (⟨S64x2048, .i1⟩ : BufTy).Contents (Elt F) :=
  cmpi .slt (positions (F := F)) (broadcastInDim S64x2048 ![0, 1] bcast_S64x1_S64x2048_0_1 (broadcastInDim S64x1 ![0] bcast_S64_S64x1_0 len))

/-- 1 - dist[b, j] / (len_b - alen_b), the difference of lengths taken on the integers and then converted. -/
def proximity (len alen : (⟨S64, .i32⟩ : BufTy).Contents (Elt F)) (dist : (⟨S64x2048, .i32⟩ : BufTy).Contents (Elt F)) :
    (⟨S64x2048, .f32⟩ : BufTy).Contents (Elt F) :=
  subf (broadcastInDim S64x2048 ![] bcast_S_S64x2048 (constant S_ .f32 0x3F800000#32))
    (Host.divf (sitofp .f32 dist) (broadcastInDim S64x2048 ![0, 1] bcast_S64x1_S64x2048_0_1 (broadcastInDim S64x1 ![0] bcast_S64_S64x1_0 (sitofp .f32 (subi len alen)))))

/-- The weight table: the proximity where the position is inside the text and outside the aspect span, zero elsewhere. -/
def weight (span : (⟨S64x2, .i32⟩ : BufTy).Contents (Elt F)) (len alen : (⟨S64, .i32⟩ : BufTy).Contents (Elt F))
    (dist : (⟨S64x2048, .i32⟩ : BufTy).Contents (Elt F)) : (⟨S64x2048, .f32⟩ : BufTy).Contents (Elt F) :=
  select (andi (inText (F := F) len) (noti (inAspect (F := F) span))) (proximity (F := F) len alen dist)
    (broadcastInDim S64x2048 ![] bcast_S_S64x2048 (id (constant S_ .f32 0x00000000#32)))

variable (m : (ℓ : Loc nD τ sig) → Buf (Elt F) ℓ)

set_option maxHeartbeats 2000000 in
/-- When the region is entered, its second operand's array holds the weight table of the four integer arguments. -/
theorem entry_weight (c : Dev nD) :
    (V m c main_v25 : S64x2048.Idx → Elt F .f32)
      = weight (F := F) (m ((c : Thread nD τ).loc main_arg1)) (m ((c : Thread nD τ).loc main_arg2))
          (m ((c : Thread nD τ).loc main_arg3)) (m ((c : Thread nD τ).loc main_arg4)) := by
  dsimp only [V]
  simp only [hostOps0, hostOps0_1, List.flatten_cons, List.flatten_nil, List.append_nil, List.cons_append, List.nil_append]
  after_results_simp
  rfl

end Cert.KernelIdeal.RowScaled

end
-- ==== Proof.ReferenceProduct.lean ====
/-
  The reference's result, on the extended reals, is the kernel's product array.

  The reference computes the same weight table w by the same host operations, repeats it along the feature axis
  ([64, 2048] -> [64, 2048, 1] -> [64, 2048, 512]) and multiplies: ref[b, s, d] = w[b, s] * x[b, s, d]. The kernel
  leaves x[b, s, d] * w[b, s]. The product of extended reals is commutative (infinite factors included), so the two
  arrays agree entry by entry; no finiteness of x is used.
-/
import proofs.«104873_j23905787970107_1_alg».proof.Proof.Gen.ReferenceIdeal.Read
import proofs.«104873_j23905787970107_1_alg».proof.Proof.BlockProduct
import proofs.«104873_j23905787970107_1_alg».proof.Proof.WeightTable
import Idealize.ShloMosaic.PureOps.Ideal

noncomputable section

namespace Cert.ReferenceIdeal.RowScaled

open Cert.ReferenceIdeal Cert.ReferenceIdeal.Read Idealize.ShloMosaic Idealize.ShloMosaic.TcCoe
open Cert.KernelIdeal.RowScaled (scaled rowOf weight)

/-- The reference's table is the kernel's: the same operations on the same arguments, in the same order. -/
theorem table_eq {F : FTy → Type} [FloatOps F] (span : (⟨S64x2, .i32⟩ : BufTy).Contents (Elt F))
    (len alen : (⟨S64, .i32⟩ : BufTy).Contents (Elt F)) (dist : (⟨S64x2048, .i32⟩ : BufTy).Contents (Elt F)) :
    val_main_v25 (F := F) span len alen dist = weight (F := F) span len alen dist := rfl

/-- Through the two repetitions, entry (b, s, d) of the repeated table is entry (b, s) of the table. -/
theorem repeated_index (i : S64x2048x512.Idx) : idx_main_v26 (idx_main_v27 i) = rowOf i :=
  funext fun a => Fin.ext (by match a with | ⟨0, _⟩ => rfl | ⟨1, _⟩ => rfl)

/-- The reference's result array is every entry of `x` times the weight of its row. -/
theorem result_eq (x : (⟨S64x2048x512, .f32⟩ : BufTy).Contents (Elt Ideal)) (span : (⟨S64x2, .i32⟩ : BufTy).Contents (Elt Ideal))
    (len alen : (⟨S64, .i32⟩ : BufTy).Contents (Elt Ideal)) (dist : (⟨S64x2048, .i32⟩ : BufTy).Contents (Elt Ideal)) :
    val_main_v28 (F := Ideal) x span len alen dist = scaled (F := Ideal) x (weight (F := Ideal) span len alen dist) := by
  funext i
  rw [val_main_v28_apply, val_main_v27_apply, val_main_v26_apply, repeated_index, table_eq]
  show (_ : EReal) * _ = _ * _
  exact mul_comm _ _

end Cert.ReferenceIdeal.RowScaled

end
-- ==== Proof.lean ====
/-
  The proof of `Cert.Claim` for the proximity-weighting kernel.

  The kernel computes, on the host, a weight table w[b, s] from four integer arguments, and in one region over an
  8 x 4 grid multiplies every entry x[b, s, d] of the float argument by w[b, s]. The reference computes the same table
  by the same host operations and returns w[b, s] * x[b, s, d].

  * The three frames: the kernel's two (word level and idealized) are the generated frame runs; the reference's is
    its generated run with the result dropped.
  * The idealization rewrote nothing, so `preserves` is `True`.
  * The value claim. The kernel's result array ends at x * w, entry by entry with w read at the entry's
    (batch, position) pair (Proof/BlockProduct.lean: each grid point writes its block of that array, and the 32 blocks
    tile it), where w is the table the region finds in its second operand (Proof/WeightTable.lean). The reference's
    result, read entry by entry through its two repetitions of the table, is w * x (Proof/ReferenceProduct.lean).
    Multiplication of extended reals is commutative, so the two agree; the precondition is not used.
-/
import proofs.«104873_j23905787970107_1_alg».proof.Defs
import proofs.«104873_j23905787970107_1_alg».proof.Proof.Gen.Kernel
import proofs.«104873_j23905787970107_1_alg».proof.Proof.Gen.Kernel.Skeleton
import proofs.«104873_j23905787970107_1_alg».proof.Proof.Gen.Kernel.Launch
import proofs.«104873_j23905787970107_1_alg».proof.Proof.Gen.Kernel.Points
import proofs.«104873_j23905787970107_1_alg».proof.Proof.Gen.Kernel.Frame
import proofs.«104873_j23905787970107_1_alg».proof.Proof.Gen.KernelIdeal
import proofs.«104873_j23905787970107_1_alg».proof.Proof.Gen.KernelIdeal.Skeleton
import proofs.«104873_j23905787970107_1_alg».proof.Proof.Gen.KernelIdeal.Launch
import proofs.«104873_j23905787970107_1_alg».proof.Proof.Gen.KernelIdeal.Points
import proofs.«104873_j23905787970107_1_alg».proof.Proof.Gen.KernelIdeal.Frame
import proofs.«104873_j23905787970107_1_alg».proof.Proof.Gen.ReferenceIdeal
import proofs.«104873_j23905787970107_1_alg».proof.Proof.Gen.Pre_finite_inputs
import proofs.«104873_j23905787970107_1_alg».proof.Proof.Gen.KernelIdeal.Value
import proofs.«104873_j23905787970107_1_alg».proof.Proof.Gen.ReferenceIdeal.Run
import proofs.«104873_j23905787970107_1_alg».proof.Proof.Gen.ReferenceIdeal.Read
import proofs.«104873_j23905787970107_1_alg».proof.Proof.BlockProduct
import proofs.«104873_j23905787970107_1_alg».proof.Proof.WeightTable
import proofs.«104873_j23905787970107_1_alg».proof.Proof.ReferenceProduct
import Idealize.ShloMosaic.Adequacy
import Idealize.ShloMosaic.Init

noncomputable section

open Idealize.ShloMosaic Idealize.ShloMosaic.TcCoe Idealize.SL.Sem

/-! ## The kernel's run, with its result named -/

namespace Cert.KernelIdeal.RowScaled

open Cert.KernelIdeal Cert.KernelIdeal.Gen

variable {F : FTy → Type} [FloatOps F]

/-- Every weakly fair execution of the kernel's @main terminates with the result array at x * w — x the float
    argument as launched, w the weight table of the four integer arguments as launched — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v26)
        = scaled (F := F) (m ((c : Thread nD τ).loc main_arg0))
            (weight (F := F) (m ((c : Thread nD τ).loc main_arg1)) (m ((c : Thread nD τ).loc main_arg2))
              (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg0, entry_weight])), (h c).2⟩)
    (Cert.KernelIdeal.Value.run_blocks m ρ)

end Cert.KernelIdeal.RowScaled

/-! ## The claims -/

namespace Cert.Proof

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals both programs end with x * w in their result arrays: the kernel by its run above, the
    reference by its generated run read entry by entry; the arguments agree, so the two arrays are one. -/
theorem algebraic : Cert.algebraic_KernelIdeal_ReferenceIdeal := by
  intro m ρ m' ρ' _ hagree
  refine ⟨_, Cert.KernelIdeal.RowScaled.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v28_eq (F := Ideal) _ _ _ _ _).trans
    (Cert.ReferenceIdeal.RowScaled.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
